-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64 : Shape := ⟨2, ![1, 64]⟩
abbrev S50000x64 : Shape := ⟨2, ![50000, 64]⟩
abbrev S10000x128 : Shape := ⟨2, ![10000, 128]⟩
abbrev S10000x64 : Shape := ⟨2, ![10000, 64]⟩
abbrev S800000x64 : Shape := ⟨2, ![800000, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩

abbrev nBuf : Space → Nat
  | .hbm => 98
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S1x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S800000x1, .f32⟩
  | .hbm, ⟨52, _⟩ => ⟨S800000x64, .f32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S_, .f32⟩
  | .hbm, ⟨59, _⟩ => ⟨S50000x64, .f32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x1, .f32⟩
  | .hbm, ⟨73, _⟩ => ⟨S800000x64, .f32⟩
  | .hbm, ⟨74, _⟩ => ⟨S800000x64, .f32⟩
  | .hbm, ⟨75, _⟩ => ⟨S_, .f32⟩
  | .hbm, ⟨76, _⟩ => ⟨S50000x64, .f32⟩
  | .hbm, ⟨77, _⟩ => ⟨S800000x1, .i32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S512x64, .f32⟩
  | .hbm, ⟨84, _⟩ => ⟨S50000x1, .i32⟩
  | .hbm, ⟨85, _⟩ => ⟨S512x64, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S512, .f32⟩
  | .hbm, ⟨90, _⟩ => ⟨S50000x1, .i32⟩
  | .hbm, ⟨91, _⟩ => ⟨S512, .f32⟩
  | .hbm, ⟨92, _⟩ => ⟨S_, .f32⟩
  | .hbm, ⟨93, _⟩ => ⟨S512, .f32⟩
  | .hbm, ⟨94, _⟩ => ⟨S512, .f32⟩
  | .hbm, ⟨95, _⟩ => ⟨S512x1, .f32⟩
  | .hbm, ⟨96, _⟩ => ⟨S512x64, .f32⟩
  | .hbm, ⟨97, _⟩ => ⟨S512x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S1x64 : Shape := ⟨2, ![1, 64]⟩
abbrev S800000x64 : Shape := ⟨2, ![800000, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x1, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S_, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x64, .f32⟩
  | .hbm, ⟨76, _⟩ => ⟨S800000x1, .f32⟩
  | .hbm, ⟨77, _⟩ => ⟨S800000x64, .f32⟩
  | .hbm, ⟨78, _⟩ => ⟨S800000x64, .f32⟩
  | .hbm, ⟨79, _⟩ => ⟨S_, .f32⟩
  | .hbm, ⟨80, _⟩ => ⟨S50000x64, .f32⟩
  | .hbm, ⟨81, _⟩ => ⟨S800000x1, .i32⟩
  | .hbm, ⟨82, _⟩ => ⟨S50000x64, .f32⟩
  | .hbm, ⟨83, _⟩ => ⟨S_, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S512x64, .f32⟩
  | .hbm, ⟨88, _⟩ => ⟨S50000x1, .i32⟩
  | .hbm, ⟨89, _⟩ => ⟨S512x64, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S512, .f32⟩
  | .hbm, ⟨94, _⟩ => ⟨S50000x1, .i32⟩
  | .hbm, ⟨95, _⟩ => ⟨S512, .f32⟩
  | .hbm, ⟨96, _⟩ => ⟨S_, .f32⟩
  | .hbm, ⟨97, _⟩ => ⟨S512, .f32⟩
  | .hbm, ⟨98, _⟩ => ⟨S512, .f32⟩
  | .hbm, ⟨99, _⟩ => ⟨S512x1, .f32⟩
  | .hbm, ⟨100, _⟩ => ⟨S512x64, .f32⟩
  | .hbm, ⟨101, _⟩ => ⟨S512x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call0_cst : Ref sig .tc := ⟨.hbm, 60, rfl⟩
abbrev main_call0_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call1_cst : Ref sig .tc := ⟨.hbm, 83, rfl⟩
abbrev main_call1_v0 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

class Facts : Prop extends Facts₀ where

variable [Facts]
-- ==== Proof.Payload.lean ====
/-
  What one grid point's body stores, entry by entry. The body converts its row tile and the weights to bf16 (no change
  at the ideal values), multiplies them into a zero accumulator and adds the bias row to every row: at row `p` of the
  tile and column `q` the stored value is `Σ_k x[p,k] · w[k,q] + b[0,q]`.
-/
import proofs.«102319_j58428735095225_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Idealize.ShloMosaic Idealize.ShloMosaic.ValueIdx Cert.KernelIdeal Cert.KernelIdeal.Gen

/-! ### The 128-feature kernel's product -/

theorem lhsA_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsA_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhsA_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhsA_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The tile's product into a zero accumulator, at row `p` and column `q`: the sum over the 128 features of the
    row's entry times the weight's. -/
theorem matmulA_apply (x : FVec Ideal S10000x128 .bf16) (w : FVec Ideal S128x64 .bf16) (p : Fin 10000) (q : Fin 64) :
    matmul dot_S10000x128_S128x64_S10000x64_1_0_0_1_n_n none x w (constant S10000x64 .f32 0x00000000#32) (ix2 p q)
      = ∑ k : Fin 128, x (ix2 p k) * w (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### The 64-feature kernel's product -/

theorem lhsB_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsB_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsB_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsB_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The tile's product into a zero accumulator, at row `p` and column `q`: the sum over the 64 features of the
    row's entry times the weight's. -/
theorem matmulB_apply (x : FVec Ideal S10000x64 .bf16) (w : FVec Ideal S64x64 .bf16) (p : Fin 10000) (q : Fin 64) :
    matmul dot_S10000x64_S64x64_S10000x64_1_0_0_1_n_n none x w (constant S10000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ### The bias row spread over the tile -/

/-- The bias row, broadcast to every row of the tile, read at `(p, q)`. -/
theorem biasRow_apply (b : FVec Ideal S1x64 .f32) (p : Fin 10000) (q : Fin 64) :
    broadcastTo S10000x64 (shapeCast S1x64 b shapeCasts_S1x64_S1x64) broadcasts_S1x64_S10000x64 (ix2 p q) = b (ix2 0 q) := by
  rw [shapeCast_self]
  exact broadcastTo_apply b broadcasts_S1x64_S10000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-! ### The two payloads -/

/-- The first layer's stored tile at `(p, q)`. -/
theorem pay128_apply (x : FVec Ideal S10000x128 .f32) (w : FVec Ideal S128x64 .f32) (b : FVec Ideal S1x64 .f32)
    (p : Fin 10000) (q : Fin 64) :
    k0_pay1 (F := Ideal) x w b (ix2 p q) = (∑ k : Fin 128, x (ix2 p k) * w (ix2 k q)) + b (ix2 0 q) := by
  unfold k0_pay1
  show matmul dot_S10000x128_S128x64_S10000x64_1_0_0_1_n_n none (truncf .bf16 x bitsLt_bf16_f32) (truncf .bf16 w bitsLt_bf16_f32)
        (constant S10000x64 .f32 0x00000000#32) (ix2 p q)
      + broadcastTo S10000x64 (shapeCast S1x64 b shapeCasts_S1x64_S1x64) broadcasts_S1x64_S10000x64 (ix2 p q) = _
  rw [matmulA_apply, biasRow_apply]
  rfl

/-- The second layer's stored tile at `(p, q)`. -/
theorem pay64_apply (x : FVec Ideal S10000x64 .f32) (w : FVec Ideal S64x64 .f32) (b : FVec Ideal S1x64 .f32)
    (p : Fin 10000) (q : Fin 64) :
    k1_pay1 (F := Ideal) x w b (ix2 p q) = (∑ k : Fin 64, x (ix2 p k) * w (ix2 k q)) + b (ix2 0 q) := by
  unfold k1_pay1
  show matmul dot_S10000x64_S64x64_S10000x64_1_0_0_1_n_n none
        (truncf .bf16 (shapeCast S10000x64 x shapeCasts_S10000x64_S10000x64) bitsLt_bf16_f32) (truncf .bf16 w bitsLt_bf16_f32)
        (constant S10000x64 .f32 0x00000000#32) (ix2 p q)
      + broadcastTo S10000x64 (shapeCast S1x64 b shapeCasts_S1x64_S1x64) broadcasts_S1x64_S10000x64 (ix2 p q) = _
  rw [matmulB_apply, biasRow_apply, shapeCast_self]
  rfl

end Cert.KernelIdeal.Payload

end
-- ==== Proof.Stages.lean ====
/-
  The host side both programs share, as named functions at the ideal values, and the dense layer as a plain sum.

  A graph convolution layer here is: project the node features (`h · W + b`), carry each edge's source row to its target
  scaled by the symmetric degree normalisation `deg(src)^(-1/2) · deg(tgt)^(-1/2)`, add up what arrives at every node,
  and clip at zero. The degrees count incoming edges and are at least one. Pooling averages the node rows of each graph.
  Only the projection differs between the two programs; everything else is the same chain of host operations, which
  is carried here as `norm`, `propagate` and `pool` and never opened.
-/
import proofs.«102319_j58428735095225_1_alg».proof.Proof.Gen.KernelIdeal
import Idealize.ShloMosaic.PureOps.Ideal
import Idealize.ShloMosaic.Lib.ValueIdx

noncomputable section

namespace Cert.Stages

open Idealize.ShloMosaic Idealize.ShloMosaic.ValueIdx Cert.KernelIdeal Cert.KernelIdeal.Gen

/-- A float array of shape `s` at the ideal values; an integer array of shape `s`. -/
abbrev FArr (s : Shape) := FVec Ideal s .f32
abbrev IArr (s : Shape) := IVec s 32

/-- The source node of every edge: row 0 of the edge list. -/
def srcOf (ei : IArr S2x800000) : IArr S800000 :=
  shapeCast _ (extractStridedSlice S1x800000 ![0, 0] ei slices_S2x800000_S1x800000_0_0) shapeCasts_S1x800000_S800000

/-- The target node of every edge: row 1 of the edge list. -/
def dstOf (ei : IArr S2x800000) : IArr S800000 :=
  shapeCast _ (extractStridedSlice S1x800000 ![1, 0] ei slices_S2x800000_S1x800000_1_0) shapeCasts_S1x800000_S800000

/-- A node number below zero counts from the end of the 50000 nodes. -/
def wrapIdx (v : IArr S800000) : IArr S800000 :=
  select (cmpi .slt v (broadcastInDim S800000 ![] bcast_S_S800000 (constantI S_ 32 0#32)))
    (addi v (broadcastInDim S800000 ![] bcast_S_S800000 (constantI S_ 32 50000#32))) v

/-- `deg^(-1/2)` per node, the degree the number of edges arriving at it, taken as at least one. -/
def dinv (ei : IArr S2x800000) : FArr S50000 :=
  Host.rsqrt (F := Ideal) (maximumf (Host.scatterAdd scatter_S50000_S800000x1_S800000_n_0_0_1
      (broadcastInDim S50000 ![] bcast_S_S50000 (constant (F := Ideal) S_ .f32 0x00000000#32))
      (broadcastInDim S800000x1 ![0] bcast_S800000_S800000x1_0 (dstOf ei))
      (broadcastInDim S800000 ![] bcast_S_S800000 (constant (F := Ideal) S_ .f32 0x3F800000#32)))
    (broadcastInDim S50000 ![] bcast_S_S50000 (constant (F := Ideal) S_ .f32 0x3F800000#32)))

/-- The weight of every edge: `deg(src)^(-1/2) · deg(tgt)^(-1/2)`. -/
def norm (ei : IArr S2x800000) : FArr S800000 :=
  mulf (F := Ideal) (Host.gather gather_S50000_S800000x1_S800000_n_0_n_n_0_1_1 (dinv ei)
      (broadcastInDim S800000x1 ![0] bcast_S800000_S800000x1_0 (wrapIdx (srcOf ei))))
    (Host.gather gather_S50000_S800000x1_S800000_n_0_n_n_0_1_1 (dinv ei)
      (broadcastInDim S800000x1 ![0] bcast_S800000_S800000x1_0 (wrapIdx (dstOf ei))))

/-- Message passing on projected features `h`: each edge carries its source's row, weighted, to its target; the rows
    arriving at a node are added; the sum is clipped at zero. -/
def propagate (ei : IArr S2x800000) (h : FArr S50000x64) : FArr S50000x64 :=
  maximumf (F := Ideal) (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 (dstOf ei))
      (mulf (F := Ideal) (Host.gather gather_S50000x64_S800000x1_S800000x64_1_0_n_n_0_1_164 h
          (broadcastInDim S800000x1 ![0] bcast_S800000_S800000x1_0 (wrapIdx (srcOf ei))))
        (broadcastInDim S800000x64 ![0, 1] bcast_S800000x1_S800000x64_0_1
          (broadcastInDim S800000x1 ![0] bcast_S800000_S800000x1_0 (norm ei)))))
    (broadcastInDim S50000x64 ![] bcast_S_S50000x64 (constant (F := Ideal) S_ .f32 0x00000000#32))

/-- The mean of the node rows of each of the 512 graphs (`batch` says which graph a node is in; an empty graph
    divides by one). -/
def pool (batch : IArr S50000) (h : FArr S50000x64) : FArr S512x64 :=
  Host.divf (F := Ideal) (Host.scatterAdd scatter_S512x64_S50000x1_S50000x64_1_0_0_1
      (broadcastInDim S512x64 ![] bcast_S_S512x64 (constant (F := Ideal) S_ .f32 0x00000000#32))
      (broadcastInDim S50000x1 ![0] bcast_S50000_S50000x1_0 batch) h)
    (broadcastInDim S512x64 ![0, 1] bcast_S512x1_S512x64_0_1 (broadcastInDim S512x1 ![0] bcast_S512_S512x1_0
      (maximumf (F := Ideal) (Host.scatterAdd scatter_S512_S50000x1_S50000_n_0_0_1
          (broadcastInDim S512 ![] bcast_S_S512 (constant (F := Ideal) S_ .f32 0x00000000#32))
          (broadcastInDim S50000x1 ![0] bcast_S50000_S50000x1_0 batch)
          (broadcastInDim S50000 ![] bcast_S_S50000 (constant (F := Ideal) S_ .f32 0x3F800000#32)))
        (broadcastInDim S512 ![] bcast_S_S512 (constant (F := Ideal) S_ .f32 0x3F800000#32)))))

/-- The dense layer on 128 input features: entry (r, j) is `Σ_k x[r,k] · w[k,j] + b[j]`. -/
def lin128 (x : FArr S50000x128) (w : FArr S128x64) (b : FArr S64) : FArr S50000x64 :=
  fun i => (∑ k : Fin 128, x (ix2 (i 0) k) * w (ix2 k (i 1))) + b (ix1 (i 1))

/-- The dense layer on 64 input features. -/
def lin64 (x : FArr S50000x64) (w : FArr S64x64) (b : FArr S64) : FArr S50000x64 :=
  fun i => (∑ k : Fin 64, x (ix2 (i 0) k) * w (ix2 k (i 1))) + b (ix1 (i 1))

/-- What both programs compute from the seven arguments. -/
def result (x : FArr S50000x128) (ei : IArr S2x800000) (batch : IArr S50000) (w1 : FArr S128x64) (b1 : FArr S64)
    (w2 : FArr S64x64) (b2 : FArr S64) : FArr S512x64 :=
  pool batch (propagate ei (lin64 (propagate ei (lin128 x w1 b1)) w2 b2))

end Cert.Stages

end
-- ==== Proof.RegionValue.lean ====
/-
  Each of the two Pallas calls leaves the dense layer in its output array. A grid point `t` handles rows
  `10000·t … 10000·t + 9999`: it is handed that row tile of the input, the whole weight matrix and the bias row, and
  writes back the tile of `x · W + b`; the five tiles cover the 50000 rows, so the array ends as `x · W + b` whole.
  Stated for whatever contents `V` the call finds in its arrays.
-/
import proofs.«102319_j58428735095225_1_alg».proof.Proof.Gen.KernelIdeal.Frame
import proofs.«102319_j58428735095225_1_alg».proof.Proof.Payload
import proofs.«102319_j58428735095225_1_alg».proof.Proof.Stages

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Stages

/-- The bias as the kernel is handed it, a one-row matrix, read as a vector. -/
def biasOf (b : FVec Ideal S1x64 .f32) : FVec Ideal S64 .f32 := fun j => b (ix2 0 (j 0))

theorem hz : (![0, 0] : Fin 2 → Nat) = fun _ => 0 := funext fun a => by fin_cases a <;> rfl

variable (V : (c : Dev nD) → (b : Ref sig .tc) → Buf (Elt Ideal) ((c : Thread nD τ).loc b))

/-! ## Pallas call 0: the 128-feature layer -/

/-- The index maps of the four windows, decided over the five grid points: the input rows move with the output rows, the
    weights and the bias row stay at block (0, 0), the output's row block is one of the five and its column block is 0. -/
theorem idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 4 ∧ win0_3.index t (1 : Fin 2) = 0 :=
  (by decide +kernel : ∀ t : Fin grid0.N, _)

/-- Every one of the five row blocks is some grid point's. -/
theorem onto0 : ∀ q0 : Fin 5, ∃ t : Fin cfg0.N, win0_3.index t = ![q0.val, 0] :=
  (by decide +kernel : ∀ q0 : Fin 5, ∃ t : Fin grid0.N, win0_3.index t = ![q0.val, 0])

/-- What grid point `t` writes back is rows `10000·t … 10000·t + 9999` of the dense layer of the arrays the call finds. -/
theorem flushed0 (c : Dev nD) (t : Fin cfg0.N) :
    (dat0 V c).flushed 3 t = ((cfg0.win 3).blk t).view.read (Elt Ideal)
      (lin128 (V c main_arg0) (V c main_arg3) (biasOf (V c main_v26))) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨e0, e1, e2, e3, e4, e5, e6, e7⟩ := idx0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (ix2 p q)
    = lin128 (V c main_arg0) (V c main_arg3) (biasOf (V c main_v26)) (((cfg0.win 3).blk t).view.emb (ix2 p q))
  refine (Payload.pay128_apply (iblk0 V c 0 t) (iblk0 V c 1 t) (iblk0 V c 2 t) p q).trans ?_
  -- the row of the array this entry lands in
  have hr : win0_3.index t (0 : Fin 2) * 10000 + p.val < 50000 := by have := p.isLt; omega
  have hemb : ((cfg0.win 3).blk t).view.emb (ix2 p q) = ix2 (⟨win0_3.index t (0 : Fin 2) * 10000 + p.val, hr⟩ : Fin 50000) q := by
    funext a; apply Fin.ext
    match a with
    | ⟨0, _⟩ => show win0_3.index t (0 : Fin 2) * 10000 + 1 * p.val = win0_3.index t (0 : Fin 2) * 10000 + p.val; omega
    | ⟨1, _⟩ => show win0_3.index t (1 : Fin 2) * 64 + 1 * q.val = q.val; omega
  rw [hemb]
  have hx : ∀ k : Fin 128, iblk0 V c 0 t (ix2 p k) = V c main_arg0 (ix2 (⟨win0_3.index t (0 : Fin 2) * 10000 + p.val, hr⟩ : Fin 50000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_3.index t (0 : Fin 2) * 10000 + p.val; omega
    | ⟨1, _⟩ => show win0_0.index t (1 : Fin 2) * 128 + 1 * k.val = k.val; omega
  have hw : ∀ k : Fin 128, iblk0 V c 1 t (ix2 k q) = V c main_arg3 (ix2 k q) := fun k => by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  have hb : iblk0 V c 2 t (ix2 0 q) = V c main_v26 (ix2 0 q) := by
    show V c main_v26 (((cfg0.win 2).blk t).view.emb (ix2 0 q)) = _
    refine congrArg (V c main_v26) (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  rw [hb]
  refine congrArg (· + V c main_v26 (ix2 0 q)) (Finset.sum_congr rfl fun k _ => ?_)
  rw [hx k, hw k]

/-- An index of the output array lies in point `t`'s block iff each coordinate is in the block's range on its axis. -/
theorem mem_blk0 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v27).slice (win0_3.rect t)).set ↔ _
  rw [View.set_slice_whole, Rect.mem_set_unit]
  exact Iff.rfl

/-- The five row blocks cover the output array: row `r` is in block `r / 10000`. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after the call is the dense layer of the arrays the call finds. -/
theorem final0 (c : Dev nD) :
    (dat0 V c).arrAt 3 cfg0.N = lin128 (V c main_arg0) (V c main_arg3) (biasOf (V c main_v26)) :=
  (dat0 V c).arrAt_eq_of_cover 3 _ (fun t _ => flushed0 V c t) cover0

/-! ## Pallas call 1: the 64-feature layer -/

/-- The index maps of the four windows, decided over the five grid points: the input rows move with the output rows, the
    weights and the bias row stay at block (0, 0), the output's row block is one of the five and its column block is 0. -/
theorem idx1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 4 ∧ win1_3.index t (1 : Fin 2) = 0 :=
  (by decide +kernel : ∀ t : Fin grid1.N, _)

/-- Every one of the five row blocks is some grid point's. -/
theorem onto1 : ∀ q0 : Fin 5, ∃ t : Fin cfg1.N, win1_3.index t = ![q0.val, 0] :=
  (by decide +kernel : ∀ q0 : Fin 5, ∃ t : Fin grid1.N, win1_3.index t = ![q0.val, 0])

/-- What grid point `t` writes back is rows `10000·t … 10000·t + 9999` of the dense layer of the arrays the call finds. -/
theorem flushed1 (c : Dev nD) (t : Fin cfg1.N) :
    (dat1 V c).flushed 3 t = ((cfg1.win 3).blk t).view.read (Elt Ideal)
      (lin64 (V c main_v41) (V c main_arg5) (biasOf (V c main_v42))) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (ix2 p q)
    = lin64 (V c main_v41) (V c main_arg5) (biasOf (V c main_v42)) (((cfg1.win 3).blk t).view.emb (ix2 p q))
  refine (Payload.pay64_apply (iblk1 V c 0 t) (iblk1 V c 1 t) (iblk1 V c 2 t) p q).trans ?_
  -- the row of the array this entry lands in
  have hr : win1_3.index t (0 : Fin 2) * 10000 + p.val < 50000 := by have := p.isLt; omega
  have hemb : ((cfg1.win 3).blk t).view.emb (ix2 p q) = ix2 (⟨win1_3.index t (0 : Fin 2) * 10000 + p.val, hr⟩ : Fin 50000) q := by
    funext a; apply Fin.ext
    match a with
    | ⟨0, _⟩ => show win1_3.index t (0 : Fin 2) * 10000 + 1 * p.val = win1_3.index t (0 : Fin 2) * 10000 + p.val; omega
    | ⟨1, _⟩ => show win1_3.index t (1 : Fin 2) * 64 + 1 * q.val = q.val; omega
  rw [hemb]
  have hx : ∀ k : Fin 64, iblk1 V c 0 t (ix2 p k) = V c main_v41 (ix2 (⟨win1_3.index t (0 : Fin 2) * 10000 + p.val, hr⟩ : Fin 50000) k) := fun k => by
    show V c main_v41 (((cfg1.win 0).blk t).view.emb (ix2 p k)) = _
    refine congrArg (V c main_v41) (funext fun a => Fin.ext ?_)
    match a with
    | ⟨0, _⟩ => show win1_0.index t (0 : Fin 2) * 10000 + 1 * p.val = win1_3.index t (0 : Fin 2) * 10000 + p.val; omega
    | ⟨1, _⟩ => show win1_0.index t (1 : Fin 2) * 64 + 1 * k.val = k.val; omega
  have hw : ∀ k : Fin 64, iblk1 V c 1 t (ix2 k q) = V c main_arg5 (ix2 k q) := fun k => by
    show V c main_arg5 (((cfg1.win 1).blk t).view.emb (ix2 k q)) = _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega
  have hb : iblk1 V c 2 t (ix2 0 q) = V c main_v42 (ix2 0 q) := by
    show V c main_v42 (((cfg1.win 2).blk t).view.emb (ix2 0 q)) = _
    refine congrArg (V c main_v42) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  rw [hb]
  refine congrArg (· + V c main_v42 (ix2 0 q)) (Finset.sum_congr rfl fun k _ => ?_)
  rw [hx k, hw k]

/-- An index of the output array lies in point `t`'s block iff each coordinate is in the block's range on its axis. -/
theorem mem_blk1 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v43).slice (win1_3.rect t)).set ↔ _
  rw [View.set_slice_whole, Rect.mem_set_unit]
  exact Iff.rfl

/-- The five row blocks cover the output array: row `r` is in block `r / 10000`. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the call is the dense layer of the arrays the call finds. -/
theorem final1 (c : Dev nD) :
    (dat1 V c).arrAt 3 cfg1.N = lin64 (V c main_v41) (V c main_arg5) (biasOf (V c main_v42)) :=
  (dat1 V c).arrAt_eq_of_cover 3 _ (fun t _ => flushed1 V c t) cover1

end Cert.KernelIdeal.RegionValue

end
-- ==== Proof.KernelValue.lean ====
/-
  The kernel program's result, read back through @main. Between the launch and the return the buffers pass through nine
  boundaries: host operations, the first Pallas call, host operations, the second call, host operations. The edge list's two
  rows, the edge weights, the graph numbers and the second layer's parameters are written once (or never) and keep their
  contents through every later boundary; each call's output array is the dense layer of what the call finds; and the
  host operations between and after the calls are message passing and pooling. Composed, the result buffer holds
  `result` of the seven arguments.
-/
import proofs.«102319_j58428735095225_1_alg».proof.Proof.Gen.KernelIdeal.Frame
import proofs.«102319_j58428735095225_1_alg».proof.Proof.RegionValue
import proofs.«102319_j58428735095225_1_alg».proof.Proof.Stages
import Idealize.ShloMosaic.Lib.StableHlo.Run

set_option maxRecDepth 16384
set_option Elab.async false

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.Stages Cert.KernelIdeal.RegionValue

variable (m : (ℓ : Loc nD τ sig) → Buf (Elt Ideal) ℓ) (ρ : Dev nD → PrngReg) (c : Dev nD)

/-- The bias, reshaped to one row for the kernel and read back as a vector, is the bias. -/
theorem biasOf_reshape (b : FVec Ideal S64 .f32) : biasOf (shapeCast S1x64 b shapeCasts_S64_S1x64) = b := by
  funext j
  obtain ⟨q, rfl⟩ : ∃ q : Fin 64, j = ix1 q := ⟨j 0, eq_ix1 j⟩
  show shapeCast S1x64 b shapeCasts_S64_S1x64 (ix2 0 q) = b (ix1 q)
  exact shapeCast_apply b shapeCasts_S64_S1x64 (ix2 0 q) (ix1 q)
    (by rewrite [Shape.rowMajor_val_one, Shape.rowMajor_val_two]; show q.val = 0 * 64 + q.val; omega)

/-! ## Before the first call -/

theorem W1_src : W1 m ρ c (Proc.devRef .tc main_v1) = srcOf (m ((c.tc : Thread nD τ).loc main_arg1)) := by
  show StableHlo.after hostOps0 (W0 m ρ c) (Proc.devRef .tc main_v1) = _
  dsimp only [hostOps0]
  after_results_simp
  try rfl

theorem W1_dst : W1 m ρ c (Proc.devRef .tc main_v3) = dstOf (m ((c.tc : Thread nD τ).loc main_arg1)) := by
  show StableHlo.after hostOps0 (W0 m ρ c) (Proc.devRef .tc main_v3) = _
  dsimp only [hostOps0]
  after_results_simp
  try rfl

theorem W1_norm : W1 m ρ c (Proc.devRef .tc main_v25) = norm (m ((c.tc : Thread nD τ).loc main_arg1)) := by
  show StableHlo.after hostOps0 (W0 m ρ c) (Proc.devRef .tc main_v25) = _
  dsimp only [hostOps0]
  after_results_simp
  try rfl

theorem W1_bias : W1 m ρ c (Proc.devRef .tc main_v26) = shapeCast S1x64 (m ((c.tc : Thread nD τ).loc main_arg4)) shapeCasts_S64_S1x64 := by
  show StableHlo.after hostOps0 (W0 m ρ c) (Proc.devRef .tc main_v26) = _
  dsimp only [hostOps0]
  after_results_simp
  try rfl

theorem W1_a0 : W1 m ρ c (Proc.devRef .tc main_arg0) = (m ((c.tc : Thread nD τ).loc main_arg0)) := by
  show StableHlo.after hostOps0 (W0 m ρ c) (Proc.devRef .tc main_arg0) = _
  dsimp only [hostOps0]
  after_results_simp
  try rfl

theorem W1_a3 : W1 m ρ c (Proc.devRef .tc main_arg3) = (m ((c.tc : Thread nD τ).loc main_arg3)) := by
  show StableHlo.after hostOps0 (W0 m ρ c) (Proc.devRef .tc main_arg3) = _
  dsimp only [hostOps0]
  after_results_simp
  try rfl

theorem W1_a2 : W1 m ρ c (Proc.devRef .tc main_arg2) = (m ((c.tc : Thread nD τ).loc main_arg2)) := by
  show StableHlo.after hostOps0 (W0 m ρ c) (Proc.devRef .tc main_arg2) = _
  dsimp only [hostOps0]
  after_results_simp
  try rfl

theorem W1_a5 : W1 m ρ c (Proc.devRef .tc main_arg5) = (m ((c.tc : Thread nD τ).loc main_arg5)) := by
  show StableHlo.after hostOps0 (W0 m ρ c) (Proc.devRef .tc main_arg5) = _
  dsimp only [hostOps0]
  after_results_simp
  try rfl

theorem W1_a6 : W1 m ρ c (Proc.devRef .tc main_arg6) = (m ((c.tc : Thread nD τ).loc main_arg6)) := by
  show StableHlo.after hostOps0 (W0 m ρ c) (Proc.devRef .tc main_arg6) = _
  dsimp only [hostOps0]
  after_results_simp
  try rfl

/-- What later boundaries still hold of the early buffers: the edges' sources and targets, their weights, the graph
    numbers and the second layer's parameters. -/
structure Kept (W : Valuation τ sig (Elt Ideal)) : Prop where
  src : W (Proc.devRef .tc main_v1) = srcOf (m ((c.tc : Thread nD τ).loc main_arg1))
  dst : W (Proc.devRef .tc main_v3) = dstOf (m ((c.tc : Thread nD τ).loc main_arg1))
  nrm : W (Proc.devRef .tc main_v25) = norm (m ((c.tc : Thread nD τ).loc main_arg1))
  a2 : W (Proc.devRef .tc main_arg2) = (m ((c.tc : Thread nD τ).loc main_arg2))
  a5 : W (Proc.devRef .tc main_arg5) = (m ((c.tc : Thread nD τ).loc main_arg5))
  a6 : W (Proc.devRef .tc main_arg6) = (m ((c.tc : Thread nD τ).loc main_arg6))

theorem kept1 : Kept m c (W1 m ρ c) :=
  ⟨W1_src m ρ c, W1_dst m ρ c, W1_norm m ρ c, W1_a2 m ρ c, W1_a5 m ρ c, W1_a6 m ρ c⟩

/-! ## The first call -/

/-- The first call writes only its output array. -/
theorem kept2 : Kept m c (W2 m ρ c) :=
  ⟨(W2_of_ne m ρ c main_v1 (by decide)).trans (kept1 m ρ c).src,
   (W2_of_ne m ρ c main_v3 (by decide)).trans (kept1 m ρ c).dst,
   (W2_of_ne m ρ c main_v25 (by decide)).trans (kept1 m ρ c).nrm,
   (W2_of_ne m ρ c main_arg2 (by decide)).trans (kept1 m ρ c).a2,
   (W2_of_ne m ρ c main_arg5 (by decide)).trans (kept1 m ρ c).a5,
   (W2_of_ne m ρ c main_arg6 (by decide)).trans (kept1 m ρ c).a6⟩

/-- Its output array is the first dense layer of the arguments. -/
theorem W2_lin : W2 m ρ c (Proc.devRef .tc main_v27) = lin128 (m ((c.tc : Thread nD τ).loc main_arg0)) (m ((c.tc : Thread nD τ).loc main_arg3)) (m ((c.tc : Thread nD τ).loc main_arg4)) := by
  refine ((W2_arr m ρ c 3).trans (final0 (V1 m ρ) c)).trans ?_
  show lin128 (W1 m ρ c (Proc.devRef .tc main_arg0)) (W1 m ρ c (Proc.devRef .tc main_arg3)) (biasOf (W1 m ρ c (Proc.devRef .tc main_v26))) = _
  rw [W1_a0, W1_a3, W1_bias, biasOf_reshape]

/-! ## The host stretches, from any contents `W`

Each stretch is read once, at an arbitrary valuation `W` of the buffers it starts from: what it writes, as the host
operations of what it reads; and that it leaves the early buffers alone. -/

section Stretches

variable (W : Valuation τ sig (Elt Ideal))

/-- The weighted messages of the first layer, added up per target node (before the clipping). -/
theorem s1_msgs : StableHlo.after hostOps1 W (Proc.devRef .tc main_v40) = (Host.scatterAdd scatter_S50000x64_S800000x1_S800000x64_1_0_0_1 (broadcastInDim S50000x64 ![] bcast_S_S50000x64 (constant (F := Ideal) S_ .f32 0x00000000#32))
        (broadcastInDim S800000x1 ![0] bcast_S800000_S800000x1_0 (W (Proc.devRef .tc main_v3)))
        (mulf (F := Ideal) (Host.gather gather_S50000x64_S800000x1_S800000x64_1_0_n_n_0_1_164 (W (Proc.devRef .tc main_v27))
            (broadcastInDim S800000x1 ![0] bcast_S800000_S800000x1_0 (wrapIdx (W (Proc.devRef .tc main_v1)))))
          (broadcastInDim S800000x64 ![0, 1] bcast_S800000x1_S800000x64_0_1
            (broadcastInDim S800000x1 ![0] bcast_S800000_S800000x1_0 (W (Proc.devRef .tc main_v25)))))) := by
  dsimp only [hostOps1]
  after_results_simp
  try rfl

theorem s1_kept (h : Kept m c W) : Kept m c (StableHlo.after hostOps1 W) :=
  ⟨(show StableHlo.after hostOps1 W (Proc.devRef .tc main_v1) = W (Proc.devRef .tc main_v1) by dsimp only [hostOps1]; after_results_simp).trans h.src,
   (show StableHlo.after hostOps1 W (Proc.devRef .tc main_v3) = W (Proc.devRef .tc main_v3) by dsimp only [hostOps1]; after_results_simp).trans h.dst,
   (show StableHlo.after hostOps1 W (Proc.devRef .tc main_v25) = W (Proc.devRef .tc main_v25) by dsimp only [hostOps1]; after_results_simp).trans h.nrm,
   (show StableHlo.after hostOps1 W (Proc.devRef .tc main_arg2) = W (Proc.devRef .tc main_arg2) by dsimp only [hostOps1]; after_results_simp).trans h.a2,
   (show StableHlo.after hostOps1 W (Proc.devRef .tc main_arg5) = W (Proc.devRef .tc main_arg5) by dsimp only [hostOps1]; after_results_simp).trans h.a5,
   (show StableHlo.after hostOps1 W (Proc.devRef .tc main_arg6) = W (Proc.devRef .tc main_arg6) by dsimp only [hostOps1]; after_results_simp).trans h.a6⟩

/-- The clipping at zero after the first layer. -/
theorem s1r_relu : StableHlo.after hostOps1_1 W (Proc.devRef .tc main_v41) = maximumf (F := Ideal) (W (Proc.devRef .tc main_v40)) (broadcastInDim S50000x64 ![] bcast_S_S50000x64 (constant (F := Ideal) S_ .f32 0x00000000#32)) := by
  dsimp only [hostOps1_1]
  after_results_simp
  try rfl

theorem s1r_kept (h : Kept m c W) : Kept m c (StableHlo.after hostOps1_1 W) :=
  ⟨(show StableHlo.after hostOps1_1 W (Proc.devRef .tc main_v1) = W (Proc.devRef .tc main_v1) by dsimp only [hostOps1_1]; after_results_simp).trans h.src,
   (show StableHlo.after hostOps1_1 W (Proc.devRef .tc main_v3) = W (Proc.devRef .tc main_v3) by dsimp only [hostOps1_1]; after_results_simp).trans h.dst,
   (show StableHlo.after hostOps1_1 W (Proc.devRef .tc main_v25) = W (Proc.devRef .tc main_v25) by dsimp only [hostOps1_1]; after_results_simp).trans h.nrm,
   (show StableHlo.after hostOps1_1 W (Proc.devRef .tc main_arg2) = W (Proc.devRef .tc main_arg2) by dsimp only [hostOps1_1]; after_results_simp).trans h.a2,
   (show StableHlo.after hostOps1_1 W (Proc.devRef .tc main_arg5) = W (Proc.devRef .tc main_arg5) by dsimp only [hostOps1_1]; after_results_simp).trans h.a5,
   (show StableHlo.after hostOps1_1 W (Proc.devRef .tc main_arg6) = W (Proc.devRef .tc main_arg6) by dsimp only [hostOps1_1]; after_results_simp).trans h.a6⟩

/-- The second bias reshaped to one row. -/
theorem s1b_bias : StableHlo.after hostOps1_2 W (Proc.devRef .tc main_v42) = shapeCast S1x64 (W (Proc.devRef .tc main_arg6)) shapeCasts_S64_S1x64 := by
  dsimp only [hostOps1_2]
  after_results_simp
  try rfl

theorem s1b_h1 : StableHlo.after hostOps1_2 W (Proc.devRef .tc main_v41) = W (Proc.devRef .tc main_v41) := by
  dsimp only [hostOps1_2]
  after_results_simp

theorem s1b_kept (h : Kept m c W) : Kept m c (StableHlo.after hostOps1_2 W) :=
  ⟨(show StableHlo.after hostOps1_2 W (Proc.devRef .tc main_v1) = W (Proc.devRef .tc main_v1) by dsimp only [hostOps1_2]; after_results_simp).trans h.src,
   (show StableHlo.after hostOps1_2 W (Proc.devRef .tc main_v3) = W (Proc.devRef .tc main_v3) by dsimp only [hostOps1_2]; after_results_simp).trans h.dst,
   (show StableHlo.after hostOps1_2 W (Proc.devRef .tc main_v25) = W (Proc.devRef .tc main_v25) by dsimp only [hostOps1_2]; after_results_simp).trans h.nrm,
   (show StableHlo.after hostOps1_2 W (Proc.devRef .tc main_arg2) = W (Proc.devRef .tc main_arg2) by dsimp only [hostOps1_2]; after_results_simp).trans h.a2,
   (show StableHlo.after hostOps1_2 W (Proc.devRef .tc main_arg5) = W (Proc.devRef .tc main_arg5) by dsimp only [hostOps1_2]; after_results_simp).trans h.a5,
   (show StableHlo.after hostOps1_2 W (Proc.devRef .tc main_arg6) = W (Proc.devRef .tc main_arg6) by dsimp only [hostOps1_2]; after_results_simp).trans h.a6⟩

/-- The weighted messages of the second layer, added up per target node. -/
theorem s2_msgs : StableHlo.after hostOps2 W (Proc.devRef .tc main_v56) = (Host.scatterAdd scatter_S50000x64_S800000x1_S800000x64_1_0_0_1 (broadcastInDim S50000x64 ![] bcast_S_S50000x64 (constant (F := Ideal) S_ .f32 0x00000000#32))
        (broadcastInDim S800000x1 ![0] bcast_S800000_S800000x1_0 (W (Proc.devRef .tc main_v3)))
        (mulf (F := Ideal) (Host.gather gather_S50000x64_S800000x1_S800000x64_1_0_n_n_0_1_164 (W (Proc.devRef .tc main_v43))
            (broadcastInDim S800000x1 ![0] bcast_S800000_S800000x1_0 (wrapIdx (W (Proc.devRef .tc main_v1)))))
          (broadcastInDim S800000x64 ![0, 1] bcast_S800000x1_S800000x64_0_1
            (broadcastInDim S800000x1 ![0] bcast_S800000_S800000x1_0 (W (Proc.devRef .tc main_v25)))))) := by
  dsimp only [hostOps2]
  after_results_simp
  try rfl

theorem s2_a2 : StableHlo.after hostOps2 W (Proc.devRef .tc main_arg2) = W (Proc.devRef .tc main_arg2) := by
  dsimp only [hostOps2]
  after_results_simp

/-- The clipping at zero after the second layer. -/
theorem s2r_relu : StableHlo.after hostOps2_1 W (Proc.devRef .tc main_v57) = maximumf (F := Ideal) (W (Proc.devRef .tc main_v56)) (broadcastInDim S50000x64 ![] bcast_S_S50000x64 (constant (F := Ideal) S_ .f32 0x00000000#32)) := by
  dsimp only [hostOps2_1]
  after_results_simp
  try rfl

theorem s2r_a2 : StableHlo.after hostOps2_1 W (Proc.devRef .tc main_arg2) = W (Proc.devRef .tc main_arg2) := by
  dsimp only [hostOps2_1]
  after_results_simp

/-- The pooling. -/
theorem s2p_pool : StableHlo.after hostOps2_2 W (Proc.devRef .tc main_v69) = pool (W (Proc.devRef .tc main_arg2)) (W (Proc.devRef .tc main_v57)) := by
  dsimp only [hostOps2_2]
  after_results_simp
  try rfl

end Stretches

/-! ## Between the calls -/

theorem kept4 : Kept m c (W4 m ρ c) :=
  s1r_kept m c _ (s1_kept m c _ (kept2 m ρ c))

theorem kept5 : Kept m c (W5 m ρ c) :=
  s1b_kept m c _ (kept4 m ρ c)

/-- Message passing on the first layer's output. -/
theorem W5_h1 : W5 m ρ c (Proc.devRef .tc main_v41) = propagate (m ((c.tc : Thread nD τ).loc main_arg1)) (lin128 (m ((c.tc : Thread nD τ).loc main_arg0)) (m ((c.tc : Thread nD τ).loc main_arg3)) (m ((c.tc : Thread nD τ).loc main_arg4))) := by
  refine (s1b_h1 (W4 m ρ c)).trans ((s1r_relu (W3 m ρ c)).trans ?_)
  rw [show W3 m ρ c (Proc.devRef .tc main_v40) = _ from s1_msgs (W2 m ρ c), (kept2 m ρ c).src, (kept2 m ρ c).dst, (kept2 m ρ c).nrm, W2_lin]
  rfl

/-- The second bias, reshaped to one row. -/
theorem W5_bias : W5 m ρ c (Proc.devRef .tc main_v42) = shapeCast S1x64 (m ((c.tc : Thread nD τ).loc main_arg6)) shapeCasts_S64_S1x64 := by
  refine (s1b_bias (W4 m ρ c)).trans ?_
  rw [(kept4 m ρ c).a6]

/-! ## The second call -/

/-- The second call writes only its output array; of the early buffers the edges, their weights and the graph numbers
    are still read after it. -/
theorem W6_src : W6 m ρ c (Proc.devRef .tc main_v1) = srcOf (m ((c.tc : Thread nD τ).loc main_arg1)) := (W6_of_ne m ρ c main_v1 (by decide)).trans (kept5 m ρ c).src
theorem W6_dst : W6 m ρ c (Proc.devRef .tc main_v3) = dstOf (m ((c.tc : Thread nD τ).loc main_arg1)) := (W6_of_ne m ρ c main_v3 (by decide)).trans (kept5 m ρ c).dst
theorem W6_nrm : W6 m ρ c (Proc.devRef .tc main_v25) = norm (m ((c.tc : Thread nD τ).loc main_arg1)) := (W6_of_ne m ρ c main_v25 (by decide)).trans (kept5 m ρ c).nrm
theorem W6_a2 : W6 m ρ c (Proc.devRef .tc main_arg2) = (m ((c.tc : Thread nD τ).loc main_arg2)) := (W6_of_ne m ρ c main_arg2 (by decide)).trans (kept5 m ρ c).a2

/-- Its output array is the second dense layer of the first layer's messages. -/
theorem W6_lin : W6 m ρ c (Proc.devRef .tc main_v43)
    = lin64 (propagate (m ((c.tc : Thread nD τ).loc main_arg1)) (lin128 (m ((c.tc : Thread nD τ).loc main_arg0)) (m ((c.tc : Thread nD τ).loc main_arg3)) (m ((c.tc : Thread nD τ).loc main_arg4)))) (m ((c.tc : Thread nD τ).loc main_arg5)) (m ((c.tc : Thread nD τ).loc main_arg6)) := by
  refine ((W6_arr m ρ c 3).trans (final1 (V5 m ρ) c)).trans ?_
  show lin64 (W5 m ρ c (Proc.devRef .tc main_v41)) (W5 m ρ c (Proc.devRef .tc main_arg5)) (biasOf (W5 m ρ c (Proc.devRef .tc main_v42))) = _
  rw [W5_h1, (kept5 m ρ c).a5, W5_bias, biasOf_reshape]

/-! ## After the second call -/

/-- The second layer's messages, clipped. -/
theorem W8_h2 : W8 m ρ c (Proc.devRef .tc main_v57)
    = propagate (m ((c.tc : Thread nD τ).loc main_arg1)) (lin64 (propagate (m ((c.tc : Thread nD τ).loc main_arg1)) (lin128 (m ((c.tc : Thread nD τ).loc main_arg0)) (m ((c.tc : Thread nD τ).loc main_arg3)) (m ((c.tc : Thread nD τ).loc main_arg4)))) (m ((c.tc : Thread nD τ).loc main_arg5)) (m ((c.tc : Thread nD τ).loc main_arg6))) := by
  refine (s2r_relu (W7 m ρ c)).trans ?_
  rw [show W7 m ρ c (Proc.devRef .tc main_v56) = _ from s2_msgs (W6 m ρ c), W6_src, W6_dst, W6_nrm, W6_lin]
  rfl

theorem W8_a2 : W8 m ρ c (Proc.devRef .tc main_arg2) = (m ((c.tc : Thread nD τ).loc main_arg2)) :=
  (s2r_a2 (W7 m ρ c)).trans ((s2_a2 (W6 m ρ c)).trans (W6_a2 m ρ c))

/-- The result buffer at the return. -/
theorem result_eq : W9 m ρ c (Proc.devRef .tc main_v69)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (s2p_pool (W8 m ρ c)).trans ?_
  rw [W8_a2, W8_h2]
  rfl

end Cert.KernelIdeal.KernelValue

end
-- ==== Proof.RefValue.lean ====
/-
  The reference computes the same function. Its dense layer is a host matrix product plus the bias spread over the rows:
  at the ideal values entry (r, j) is `Σ_k x[r,k] · w[k,j] + b[j]`, the sum the kernel's tiles store. Around the two
  layers the reference applies the very host operations named in the stages, so its result is `result` of its arguments.
-/
import proofs.«102319_j58428735095225_1_alg».proof.Proof.Gen.ReferenceIdeal.Read
import proofs.«102319_j58428735095225_1_alg».proof.Proof.Stages

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-- The reference's first dense layer, as its program writes it. -/
def dense128 (x : FVec Ideal S50000x128 .f32) (w : FVec Ideal S128x64 .f32) (b : FVec Ideal S64 .f32) : FVec Ideal S50000x64 .f32 :=
  addf (F := Ideal) (Host.dotGeneral dot_S50000x128_S128x64_S50000x64_1_0_0_1_n_n none x w)
    (broadcastInDim S50000x64 ![0, 1] bcast_S1x64_S50000x64_0_1 (broadcastInDim S1x64 ![1] bcast_S64_S1x64_1 b))

/-- The reference's second dense layer, as its program writes it. -/
def dense64 (h : FVec Ideal S50000x64 .f32) (w : FVec Ideal S64x64 .f32) (b : FVec Ideal S64 .f32) : FVec Ideal S50000x64 .f32 :=
  addf (F := Ideal) (Host.dotGeneral dot_S50000x64_S64x64_S50000x64_1_0_0_1_n_n none h w)
    (broadcastInDim S50000x64 ![0, 1] bcast_S1x64_S50000x64_0_1 (broadcastInDim S1x64 ![1] bcast_S64_S1x64_1 b))

/-- The bias spread over the rows, read at an entry: the bias at the entry's column. -/
theorem bias_apply (b : FVec Ideal S64 .f32) (i : S50000x64.Idx) :
    broadcastInDim S50000x64 ![0, 1] bcast_S1x64_S50000x64_0_1 (broadcastInDim S1x64 ![1] bcast_S64_S1x64_1 b) i = b (ix1 (i 1)) := by
  have h := (val_main_v28_apply (F := Ideal) b i).trans (val_main_v27_apply (F := Ideal) b (idx_main_v28 i))
  unfold val_main_v28 val_main_v27 at h
  refine h.trans (congrArg b (funext fun a => Fin.ext ?_))
  match a with
  | ⟨0, _⟩ => rfl

/-- The 64-feature host product at an entry: the sum over the features (the 128-feature one is generated). -/
theorem dot64_apply (h : FVec Ideal S50000x64 .f32) (w : FVec Ideal S64x64 .f32) (i : S50000x64.Idx) :
    Host.dotGeneral dot_S50000x64_S64x64_S50000x64_1_0_0_1_n_n none h w i
      = ∑ k : Fin 64, h (lidx_main_v44 i k) * w (ridx_main_v44 i k) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = lidx_main_v44 i k := funext fun a => Fin.ext (by
    match a with
    | ⟨0, _⟩ => exact lhs_main_v44_0 _ _
    | ⟨1, _⟩ => exact (lhs_main_v44_1 _ _).trans hk)
  have er : dot_S50000x64_S64x64_S50000x64_1_0_0_1_n_n.rhsIdx i ((ValueIdx.contrEquiv1 dot_S50000x64_S64x64_S50000x64_1_0_0_1_n_n 64 rfl rfl).symm k) = ridx_main_v44 i k := funext fun a => Fin.ext (by
    match a with
    | ⟨0, _⟩ => exact (rhs_main_v44_0 _ _).trans hk
    | ⟨1, _⟩ => exact rhs_main_v44_1 _ _)
  rw [el, er]

/-- The reference's first dense layer is the plain sum. -/
theorem dense128_eq (x : FVec Ideal S50000x128 .f32) (w : FVec Ideal S128x64 .f32) (b : FVec Ideal S64 .f32) :
    dense128 x w b = Cert.Stages.lin128 x w b := by
  funext i
  show Host.dotGeneral dot_S50000x128_S128x64_S50000x64_1_0_0_1_n_n none x w i
      + broadcastInDim S50000x64 ![0, 1] bcast_S1x64_S50000x64_0_1 (broadcastInDim S1x64 ![1] bcast_S64_S1x64_1 b) i
    = (∑ k : Fin 128, x (ix2 (i 0) k) * w (ix2 k (i 1))) + b (ix1 (i 1))
  have hd := val_main_v26_apply x w i
  unfold val_main_v26 at hd
  rw [hd, bias_apply]
  refine congrArg (· + b (ix1 (i 1))) (Finset.sum_congr rfl fun k _ => ?_)
  have e1 : lidx_main_v26 i k = ix2 (i 0) k := funext fun a => Fin.ext (by match a with | ⟨0, _⟩ => rfl | ⟨1, _⟩ => rfl)
  have e2 : ridx_main_v26 i k = ix2 k (i 1) := funext fun a => Fin.ext (by match a with | ⟨0, _⟩ => rfl | ⟨1, _⟩ => rfl)
  exact congrArg₂ (· * ·) (congrArg _ e1) (congrArg _ e2)

/-- The reference's second dense layer is the plain sum. -/
theorem dense64_eq (h : FVec Ideal S50000x64 .f32) (w : FVec Ideal S64x64 .f32) (b : FVec Ideal S64 .f32) :
    dense64 h w b = Cert.Stages.lin64 h w b := by
  funext i
  show Host.dotGeneral dot_S50000x64_S64x64_S50000x64_1_0_0_1_n_n none h w i
      + broadcastInDim S50000x64 ![0, 1] bcast_S1x64_S50000x64_0_1 (broadcastInDim S1x64 ![1] bcast_S64_S1x64_1 b) i
    = (∑ k : Fin 64, h (ix2 (i 0) k) * w (ix2 k (i 1))) + b (ix1 (i 1))
  rw [dot64_apply, bias_apply]
  refine congrArg (· + b (ix1 (i 1))) (Finset.sum_congr rfl fun k _ => ?_)
  have e1 : lidx_main_v44 i k = ix2 (i 0) k := funext fun a => Fin.ext (by match a with | ⟨0, _⟩ => rfl | ⟨1, _⟩ => rfl)
  have e2 : ridx_main_v44 i k = ix2 k (i 1) := funext fun a => Fin.ext (by match a with | ⟨0, _⟩ => rfl | ⟨1, _⟩ => rfl)
  exact congrArg₂ (· * ·) (congrArg _ e1) (congrArg _ e2)

/-- The reference's result, with its two dense layers named and everything around them the shared stages. -/
theorem res_stages (m : (ℓ : Loc nD τ sig) → Buf (Elt Ideal) ℓ) (c : Dev nD) :
    Cert.ReferenceIdeal.Value.res_main_v73 (F := Ideal) m c
      = Cert.Stages.pool (m ((c.tc : Thread nD τ).loc main_arg2))
          (Cert.Stages.propagate (m ((c.tc : Thread nD τ).loc main_arg1))
            (dense64 (Cert.Stages.propagate (m ((c.tc : Thread nD τ).loc main_arg1))
                (dense128 (m ((c.tc : Thread nD τ).loc main_arg0)) (m ((c.tc : Thread nD τ).loc main_arg3)) (m ((c.tc : Thread nD τ).loc main_arg4))))
              (m ((c.tc : Thread nD τ).loc main_arg5)) (m ((c.tc : Thread nD τ).loc main_arg6)))) := by
  unfold Cert.ReferenceIdeal.Value.res_main_v73
  rfl

/-- The reference's result is `result` of its seven arguments. -/
theorem res_eq (m : (ℓ : Loc nD τ sig) → Buf (Elt Ideal) ℓ) (c : Dev nD) :
    Cert.ReferenceIdeal.Value.res_main_v73 (F := Ideal) m c
      = Cert.Stages.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [res_stages, dense128_eq, dense64_eq]
  rfl

end Cert.ReferenceIdeal.RefValue

end
-- ==== Proof.lean ====
/-
  Two graph-convolution layers and mean pooling over f32[50000, 128] node features, 800000 edges and 512 graphs: the kernel
  program computes each layer's projection `h · W + b` in a Pallas call over five tiles of 10000 rows (bf16 operands, f32
  accumulation) and leaves the degree normalisation, the gather / scale / scatter-add along the edges, the clipping at zero
  and the pooling to host operations; the reference does the projection with a host matrix product and applies the same
  host operations around it.

  At the ideal values a change of float format is the identity and a product into a zero accumulator is the plain sum over
  the contracted index, so a tile's stored entry (p, q) is `Σ_k x[p,k] · w[k,q] + b[q]`, which is the reference's
  `dot_general` plus its broadcast bias at the tile's row. The five tiles cover the rows, so each call's output array IS
  the reference's dense layer of whatever input it was given; no law beyond reading both sides as the same sum is used,
  and in particular nothing needs the inputs finite. Everything around the two layers is the same function on both sides
  and is carried through unopened. The three frames are the generated ones (the reference's is its run with the result
  dropped); the idealization rewrote nothing, so `preserves` has no conjunct.
-/
import proofs.«102319_j58428735095225_1_alg».proof.Defs
import proofs.«102319_j58428735095225_1_alg».proof.Proof.Gen.Kernel
import proofs.«102319_j58428735095225_1_alg».proof.Proof.Gen.Kernel.Skeleton
import proofs.«102319_j58428735095225_1_alg».proof.Proof.Gen.Kernel.Launch
import proofs.«102319_j58428735095225_1_alg».proof.Proof.Gen.Kernel.Points
import proofs.«102319_j58428735095225_1_alg».proof.Proof.Gen.Kernel.Frame
import proofs.«102319_j58428735095225_1_alg».proof.Proof.Gen.KernelIdeal
import proofs.«102319_j58428735095225_1_alg».proof.Proof.Gen.KernelIdeal.Skeleton
import proofs.«102319_j58428735095225_1_alg».proof.Proof.Gen.KernelIdeal.Launch
import proofs.«102319_j58428735095225_1_alg».proof.Proof.Gen.KernelIdeal.Points
import proofs.«102319_j58428735095225_1_alg».proof.Proof.Gen.KernelIdeal.Frame
import proofs.«102319_j58428735095225_1_alg».proof.Proof.Gen.ReferenceIdeal
import proofs.«102319_j58428735095225_1_alg».proof.Proof.Gen.Pre_finite_inputs
import proofs.«102319_j58428735095225_1_alg».proof.Proof.Gen.ReferenceIdeal.Run
import proofs.«102319_j58428735095225_1_alg».proof.Proof.Gen.ReferenceIdeal.Read
import proofs.«102319_j58428735095225_1_alg».proof.Proof.KernelRun
import proofs.«102319_j58428735095225_1_alg».proof.Proof.KernelValue
import proofs.«102319_j58428735095225_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `result` of the arguments in their result buffer: the kernel program's run read back through its
    two calls, the reference's run with its two dense layers read as sums, from memories that agree on the arguments. -/
theorem algebraic : Cert.algebraic_KernelIdeal_ReferenceIdeal := by
  intro m ρ m' ρ' _ hagree
  refine ⟨fun c => Cert.Stages.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.result_eq m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    have e := hagree c
    rw [Cert.ReferenceIdeal.RefValue.res_eq, e.1, e.2.1, e.2.2.1, e.2.2.2.1, e.2.2.2.2.1, e.2.2.2.2.2.1, e.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
